-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S28x1 : Shape := ⟨2, ![28, 1]⟩
abbrev S512x28 : Shape := ⟨2, ![512, 28]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S28x1 : S_.BroadcastsInDim S28x1 (![] : Fin 0 → Fin S28x1.rank)
  reducesTo_S28x1_S_d0_1 : S28x1.ReducesTo [0, 1] S_
  bcast_S_S512x28 : S_.BroadcastsInDim S512x28 (![] : Fin 0 → Fin S512x28.rank)
  reducesTo_S512x28_S_d0_1 : S512x28.ReducesTo [0, 1] S_

variable [Facts]

def fn {F : FTy → Type} [FloatOps F] (main_arg0 : FVec F S131072x512 .f32) (main_arg1 : FVec F S28x1 .f32) (main_arg2 : FVec F S512x28 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S28x1 .f32 := Host.absf main_arg1
  let main_cst_0 : FVec F S_ .f32 := constant S_ .f32 0x7F800000#32
  let main_v5 : FVec F S28x1 .f32 := broadcastInDim S28x1 ![] bcast_S_S28x1 main_cst_0
  let main_v6 : IVec S28x1 1 := cmpf .olt main_v4 main_v5
  let main_c_1 : IVec S_ 1 := constantI S_ 1 1#1
  let main_v7 : IVec S_ 1 := (fun x v => Host.reduce IntOp.andi x v reducesTo_S28x1_S_d0_1 h_S_) main_v6 main_c_1
  let main_v8 : IVec S_ 1 := andi main_v3 main_v7
  let main_v9 : FVec F S512x28 .f32 := Host.absf main_arg2
  let main_cst_2 : FVec F S_ .f32 := constant S_ .f32 0x7F800000#32
  let main_v10 : FVec F S512x28 .f32 := broadcastInDim S512x28 ![] bcast_S_S512x28 main_cst_2
  let main_v11 : IVec S512x28 1 := cmpf .olt main_v9 main_v10
  let main_c_3 : IVec S_ 1 := constantI S_ 1 1#1
  let main_v12 : IVec S_ 1 := (fun x v => Host.reduce IntOp.andi x v reducesTo_S512x28_S_d0_1 h_S_) main_v11 main_c_3
  let main_v13 : IVec S_ 1 := andi main_v8 main_v12
  main_v13
-- ==== Kernel.lean ====
abbrev S131072x512 : Shape := ⟨2, ![131072, 512]⟩
abbrev S28x1 : Shape := ⟨2, ![28, 1]⟩
abbrev S512x28 : Shape := ⟨2, ![512, 28]⟩
abbrev S131072x1 : Shape := ⟨2, ![131072, 1]⟩
abbrev S1x28 : Shape := ⟨2, ![1, 28]⟩
abbrev S4096x512 : Shape := ⟨2, ![4096, 512]⟩
abbrev S4096x1 : Shape := ⟨2, ![4096, 1]⟩
abbrev S4096x28 : Shape := ⟨2, ![4096, 28]⟩

abbrev nBuf : Space → Nat
  | .hbm => 5
  | .vmem => 7
  | .smem => 0
  | _ => 0

abbrev bufTy : (tb : Table) → Fin (tcTables nBuf tb) → BufTy
  | .hbm, ⟨0, _⟩ => ⟨S131072x512, .f32⟩
  | .hbm, ⟨1, _⟩ => ⟨S28x1, .f32⟩
  | .hbm, ⟨2, _⟩ => ⟨S512x28, .f32⟩
  | .hbm, ⟨3, _⟩ => ⟨S131072x1, .f32⟩
  | .hbm, ⟨4, _⟩ => ⟨S1x28, .f32⟩
  | .local _ .vmem, ⟨0, _⟩ => ⟨S4096x512, .f32⟩
  | .local _ .vmem, ⟨1, _⟩ => ⟨S4096x512, .f32⟩
  | .local _ .vmem, ⟨2, _⟩ => ⟨S512x28, .f32⟩
  | .local _ .vmem, ⟨3, _⟩ => ⟨S28x1, .f32⟩
  | .local _ .vmem, ⟨4, _⟩ => ⟨S4096x1, .f32⟩
  | .local _ .vmem, ⟨5, _⟩ => ⟨S4096x1, .f32⟩
  | .local _ .vmem, ⟨6, _⟩ => ⟨S1x28, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c31_i32 : BitVec 32 := 31#32
  let v10 : BitVec 1 := Scalar.cmpi .eq arg0 c31_i32
  let v11 : BitVec 32 := Scalar.extui v10
  let c0_i32 : BitVec 32 := 0#32
  let v12 : BitVec 1 := Scalar.cmpi .ne v11 c0_i32
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S28x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x28 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S512x28_S512x28_0_0 : ∀ a, (![0, 0] : Fin 2 → Nat) a + S512x28.size a ≤ S512x28.size a
  h_S512x28 : 0 < S512x28.numel
  inb_S28x1_S28x1_0_0 : ∀ a, (![0, 0] : Fin 2 → Nat) a + S28x1.size a ≤ S28x1.size a
  h_S28x1 : 0 < S28x1.numel
  inb_S4096x1_S4096x1_0_0 : ∀ a, (![0, 0] : Fin 2 → Nat) a + S4096x1.size a ≤ S4096x1.size a
  h_S4096x1 : 0 < S4096x1.numel
  slices_S4096x28_o4095_0_S1x28 : S4096x28.Slices ![4095, 0] S1x28
  inb_S1x28_S1x28_0_0 : ∀ a, (![0, 0] : Fin 2 → Nat) a + S1x28.size a ≤ S1x28.size a
  h_S1x28 : 0 < S1x28.numel
  dot_S4096x512_S512x28_S4096x28_1_0_0_1_n_n_wf : DotDims.WF S4096x512 S512x28 S4096x28 [1] [0] [0] [1] [] []
  dot_S4096x28_S28x1_S4096x1_1_0_0_1_n_n_wf : DotDims.WF S4096x28 S28x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x28.size a ≤ S512x28.size a
  hwx0_1 : ∀ i : grid0.Coords, EltTy.bits .f32 = 32 ∨ (Rect.block (s := S512x28) S512x28.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S28x1.size a ≤ S28x1.size a
  hwx0_2 : ∀ i : grid0.Coords, EltTy.bits .f32 = 32 ∨ (Rect.block (s := S28x1) S28x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S131072x1.size a
  hwx0_3 : ∀ i : grid0.Coords, EltTy.bits .f32 = 32 ∨ (Rect.block (s := S131072x1) S4096x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x28.size a ≤ S1x28.size a
  hwx0_4 : ∀ i : grid0.Coords, EltTy.bits .f32 = 32 ∨ (Rect.block (s := S1x28) S1x28.size (cc0_transform_4 i) (hinb0_4 i)).WholeWords (EltTy.packing .f32)

variable [Facts₀]

def dot_S4096x512_S512x28_S4096x28_1_0_0_1_n_n : DotDims S4096x512 S512x28 S4096x28 where
  lhsContracting := [1]
  rhsContracting := [0]
  lhsNonContracting := [0]
  rhsNonContracting := [1]
  lhsBatch := []
  rhsBatch := []
  wf := dot_S4096x512_S512x28_S4096x28_1_0_0_1_n_n_wf
def dot_S4096x28_S28x1_S4096x1_1_0_0_1_n_n : DotDims S4096x28 S28x1 S4096x1 where
  lhsContracting := [1]
  rhsContracting := [0]
  lhsNonContracting := [0]
  rhsNonContracting := [1]
  lhsBatch := []
  rhsBatch := []
  wf := dot_S4096x28_S28x1_S4096x1_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x28.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S28x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S4096x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x28.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) | ⟨_ + 5, h⟩ => absurd h (Nat.not_lt.2 (Nat.le_add_left _ _))

class Facts : Prop extends Facts₀ where

variable [Facts]
-- ==== ReferenceIdeal.lean ====
abbrev S131072x512 : Shape := ⟨2, ![131072, 512]⟩
abbrev S28x1 : Shape := ⟨2, ![28, 1]⟩
abbrev S512x28 : Shape := ⟨2, ![512, 28]⟩
abbrev S131072x28 : Shape := ⟨2, ![131072, 28]⟩
abbrev S131072x1 : Shape := ⟨2, ![131072, 1]⟩
abbrev S1x28 : Shape := ⟨2, ![1, 28]⟩

abbrev nBuf : Space → Nat
  | .hbm => 6
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S28x1, .f32⟩
  | .hbm, ⟨2, _⟩ => ⟨S512x28, .f32⟩
  | .hbm, ⟨3, _⟩ => ⟨S131072x28, .f32⟩
  | .hbm, ⟨4, _⟩ => ⟨S131072x1, .f32⟩
  | .hbm, ⟨5, _⟩ => ⟨S1x28, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  slices_S131072x28_S1x28_131071_0 : S131072x28.Slices ![131071, 0] S1x28
  dot_S131072x512_S512x28_S131072x28_1_0_0_1_n_n_wf : DotDims.WF S131072x512 S512x28 S131072x28 [1] [0] [0] [1] [] []
  dot_S131072x28_S28x1_S131072x1_1_0_0_1_n_n_wf : DotDims.WF S131072x28 S28x1 S131072x1 [1] [0] [0] [1] [] []

variable [Facts₀]

def dot_S131072x512_S512x28_S131072x28_1_0_0_1_n_n : DotDims S131072x512 S512x28 S131072x28 where
  lhsContracting := [1]
  rhsContracting := [0]
  lhsNonContracting := [0]
  rhsNonContracting := [1]
  lhsBatch := []
  rhsBatch := []
  wf := dot_S131072x512_S512x28_S131072x28_1_0_0_1_n_n_wf
def dot_S131072x28_S28x1_S131072x1_1_0_0_1_n_n : DotDims S131072x28 S28x1 S131072x1 where
  lhsContracting := [1]
  rhsContracting := [0]
  lhsNonContracting := [0]
  rhsNonContracting := [1]
  lhsBatch := []
  rhsBatch := []
  wf := dot_S131072x28_S28x1_S131072x1_1_0_0_1_n_n_wf

class Facts : Prop extends Facts₀ where

variable [Facts]
-- ==== Proof.Spec.lean ====
/-
  What both programs compute, as whole-array functions of the three arguments over the extended reals.

  For θ of shape [131072, 512], W of shape [512, 28] and φ of shape [28, 1]:

      proj θ W i s   =  Σ_{d < 512} θ[i, d] · W[d, s]          row i of θ against column s of W
      score θ W φ i  =  Σ_{s < 28}  proj θ W i s · φ[s, 0]

  The first result, of shape [131072, 1], holds `score` at every row; the second, of shape [1, 28],
  holds row 131071 of `proj` (the last row).

  Both programs group the two products the same way, (θ·W)·φ, and neither re-associates a sum: each side
  is read as these nested sums directly. So no law of the extended reals is used beyond reading a matrix
  product at an index, and the finiteness of the inputs is never needed.
-/
import Idealize.ShloMosaic.PureOps.Ideal
import Idealize.ShloMosaic.Lib.ValueIdx

noncomputable section

namespace Cert.Scoring

open Idealize.ShloMosaic Idealize.ShloMosaic.ValueIdx
open scoped BigOperators

/-- The last row of θ, and of θ·W. -/
abbrev lastRow : Fin 131072 := ⟨131071, by decide⟩

/-- Entry (i, s) of θ·W: row i of θ against column s of W, a sum over the 512 features. -/
def proj (θ : FVec Ideal ⟨2, ![131072, 512]⟩ .f32) (W : FVec Ideal ⟨2, ![512, 28]⟩ .f32)
    (i : Fin 131072) (s : Fin 28) : EReal :=
  ∑ d : Fin 512, θ (ix2 i d) * W (ix2 d s)

/-- Row i of (θ·W)·φ: the projected row against the one column of φ, a sum over the 28 projected entries. -/
def score (θ : FVec Ideal ⟨2, ![131072, 512]⟩ .f32) (W : FVec Ideal ⟨2, ![512, 28]⟩ .f32)
    (φ : FVec Ideal ⟨2, ![28, 1]⟩ .f32) (i : Fin 131072) : EReal :=
  ∑ s : Fin 28, proj θ W i s * φ (ix2 s 0)

/-- The first result as a whole array: `score` at every row (its one column carries no information). -/
def scores (θ : FVec Ideal ⟨2, ![131072, 512]⟩ .f32) (W : FVec Ideal ⟨2, ![512, 28]⟩ .f32)
    (φ : FVec Ideal ⟨2, ![28, 1]⟩ .f32) : FVec Ideal ⟨2, ![131072, 1]⟩ .f32 :=
  fun j => score θ W φ (j 0)

/-- The second result as a whole array: the last row of θ·W (its one row carries no information). -/
def lastProj (θ : FVec Ideal ⟨2, ![131072, 512]⟩ .f32) (W : FVec Ideal ⟨2, ![512, 28]⟩ .f32) :
    FVec Ideal ⟨2, ![1, 28]⟩ .f32 :=
  fun j => proj θ W lastRow (j 1)

end Cert.Scoring

end
-- ==== Proof.Pieces.lean ====
/-
  What the body leaves in each output's staging buffer, case by case, as a value of the point's input blocks.

  The body has two cases. Away from the last grid point it stores one thing: the block of scores, covering
  the first output's buffer whole. At the last point it stores that and, covering the second output's buffer
  whole, the last projected row. Each store's value is computed from loads that read the three input buffers
  whole, so what a buffer holds afterwards is that value of the input blocks themselves:

      first output, either case   =  the block of scores of (x0, x1, x2)
      second output, last point   =  the block's last projected row of (x0, x1)

  This holds for any reading of the floats; nothing here is arithmetic.
-/
import proofs.«101048_j89395449299573_1_alg».proof.Proof.Gen.KernelIdeal.Frame
import Idealize.ShloMosaic.Lib.Pipeline.Value
import Idealize.ShloMosaic.Lib.Tactic

noncomputable section

namespace Cert.Scoring.Pieces

open Cert.KernelIdeal Cert.KernelIdeal.Gen Idealize.ShloMosaic Idealize.ShloMosaic.TcCoe Idealize.ShloMosaic.Tactic Idealize.SL.Sem

variable {F : FTy → Type} [FloatOps F]

/-- A store at offsets (0, 0) starts at the buffer's origin. -/
theorem origin : (![0, 0] : Fin 2 → Nat) = fun _ => 0 := funext fun a => by fin_cases a <;> rfl

/-- Away from the last point the first output's buffer ends holding the block of scores. -/
theorem scores_away (c : Dev nD) (i : grid0.Coords) (a1 : Memref sig .tc .vmem S4096x512 .f32) (h1 : a1.IsWhole)
    (a2 : Memref sig .tc .vmem S512x28 .f32) (h2 : a2.IsWhole) (a3 : Memref sig .tc .vmem S28x1 .f32) (h3 : a3.IsWhole)
    (a4 : Memref sig .tc .vmem S4096x1 .f32) (h4 : a4.IsWhole) (a5 : Memref sig .tc .vmem S1x28 .f32) (h5 : a5.IsWhole)
    (hc0 : ¬cond0_0 i) (x0 : Vec F S4096x512 .f32) (x1 : Vec F S512x28 .f32) (x2 : Vec F S28x1 .f32) :
    out0_A_3 c i a1 h1 a2 h2 a3 h3 a4 h4 a5 h5 hc0 x0 x1 x2 = k0_pay2 x0 x1 x2 := by
  unfold out0_A_3
  rw [View.read_writes_eq_canon _ _ _ (cover0_A_3 c i a1 h1 a2 h2 a3 h3 a4 h4 a5 h5 hc0 x0 x1 x2)]
  unfold kernelRun0_A
  dsimp only
  sl_unfold_words
  rw [View.canon_unit_zero origin]
  simp only [View.readAt_eq_ld, h1.read_unread, h2.read_unread, h3.read_unread,
    View.ld_unit_zero (S := S4096x512) origin, View.ld_unit_zero (S := S512x28) origin, View.ld_unit_zero (S := S28x1) origin]

/-- At the last point the first output's buffer ends holding the block of scores all the same. -/
theorem scores_last (c : Dev nD) (i : grid0.Coords) (a1 : Memref sig .tc .vmem S4096x512 .f32) (h1 : a1.IsWhole)
    (a2 : Memref sig .tc .vmem S512x28 .f32) (h2 : a2.IsWhole) (a3 : Memref sig .tc .vmem S28x1 .f32) (h3 : a3.IsWhole)
    (a4 : Memref sig .tc .vmem S4096x1 .f32) (h4 : a4.IsWhole) (a5 : Memref sig .tc .vmem S1x28 .f32) (h5 : a5.IsWhole)
    (hc0 : cond0_0 i) (x0 : Vec F S4096x512 .f32) (x1 : Vec F S512x28 .f32) (x2 : Vec F S28x1 .f32) :
    out0_B_3 c i a1 h1 a2 h2 a3 h3 a4 h4 a5 h5 hc0 x0 x1 x2 = k0_pay2 x0 x1 x2 := by
  unfold out0_B_3
  rw [View.read_writes_eq_canon _ _ _ (cover0_B_3 c i a1 h1 a2 h2 a3 h3 a4 h4 a5 h5 hc0 x0 x1 x2)]
  unfold kernelRun0_B
  dsimp only
  sl_unfold_words
  rw [View.canon_unit_zero origin]
  simp only [View.readAt_eq_ld, h1.read_unread, h2.read_unread, h3.read_unread,
    View.ld_unit_zero (S := S4096x512) origin, View.ld_unit_zero (S := S512x28) origin, View.ld_unit_zero (S := S28x1) origin]

/-- At the last point the second output's buffer ends holding the block's last projected row. -/
theorem row_last (c : Dev nD) (i : grid0.Coords) (a1 : Memref sig .tc .vmem S4096x512 .f32) (h1 : a1.IsWhole)
    (a2 : Memref sig .tc .vmem S512x28 .f32) (h2 : a2.IsWhole) (a3 : Memref sig .tc .vmem S28x1 .f32) (h3 : a3.IsWhole)
    (a4 : Memref sig .tc .vmem S4096x1 .f32) (h4 : a4.IsWhole) (a5 : Memref sig .tc .vmem S1x28 .f32) (h5 : a5.IsWhole)
    (hc0 : cond0_0 i) (x0 : Vec F S4096x512 .f32) (x1 : Vec F S512x28 .f32) (x2 : Vec F S28x1 .f32) :
    out0_B_4 c i a1 h1 a2 h2 a3 h3 a4 h4 a5 h5 hc0 x0 x1 x2 = k0_pay3 x0 x1 := by
  unfold out0_B_4
  rw [View.read_writes_eq_canon _ _ _ (cover0_B_4 c i a1 h1 a2 h2 a3 h3 a4 h4 a5 h5 hc0 x0 x1 x2)]
  unfold kernelRun0_B
  dsimp only
  sl_unfold_words
  rw [View.canon_unit_zero origin]
  simp only [View.readAt_eq_ld, h1.read_unread, h2.read_unread,
    View.ld_unit_zero (S := S4096x512) origin, View.ld_unit_zero (S := S512x28) origin]

end Cert.Scoring.Pieces

end
-- ==== Proof.Payload.lean ====
/-
  What one grid point's body computes from its three input blocks, read at an index over the extended reals.

  With x0 the point's 4096 rows of θ, x1 the whole of W and x2 the whole of φ:

      blockProj  at (r, s)  =  Σ_{d < 512} x0[r, d] · x1[d, s]                the block's rows times W
      blockScore at (r, 0)  =  Σ_{s < 28}  blockProj[r, s] · x2[s, 0]         that product times φ
      blockLast  at (0, s)  =  blockProj[4095, s]                            the block's last projected row

  A change of float format is the identity on the exact reals, and a matrix product accumulated into the
  zero block is the plain sum over its one contracted axis, the left operand read at (row, k) and the right
  at (k, column).
-/
import proofs.«101048_j89395449299573_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.Scoring.Payload

open Cert.KernelIdeal Cert.KernelIdeal.Gen Idealize.ShloMosaic Idealize.ShloMosaic.TcCoe Idealize.ShloMosaic.ValueIdx
open scoped BigOperators

/-! ## The first product's operand indices, axis by axis: rows [4096, 512] times [512, 28] -/

theorem lhs_first_0 (i : S4096x28.Idx) (q : dot_S4096x512_S512x28_S4096x28_1_0_0_1_n_n.contr.Idx) :
    (dot_S4096x512_S512x28_S4096x28_1_0_0_1_n_n.lhsIdx i q 0).val = (i 0).val := by
  unfold DotDims.lhsIdx
  rw [dif_neg (show ¬(0 : Fin S4096x512.rank) ∈ dot_S4096x512_S512x28_S4096x28_1_0_0_1_n_n.lhsBatch by decide), dif_pos (show (0 : Fin S4096x512.rank) ∈ dot_S4096x512_S512x28_S4096x28_1_0_0_1_n_n.lhsNonContracting by decide)]
  rfl
theorem lhs_first_1 (i : S4096x28.Idx) (q : dot_S4096x512_S512x28_S4096x28_1_0_0_1_n_n.contr.Idx) :
    (dot_S4096x512_S512x28_S4096x28_1_0_0_1_n_n.lhsIdx i q 1).val = (q ⟨0, by decide⟩).val :=
  dot_S4096x512_S512x28_S4096x28_1_0_0_1_n_n.lhsIdx_val_of_single rfl i q
theorem rhs_first_0 (i : S4096x28.Idx) (q : dot_S4096x512_S512x28_S4096x28_1_0_0_1_n_n.contr.Idx) :
    (dot_S4096x512_S512x28_S4096x28_1_0_0_1_n_n.rhsIdx i q 0).val = (q ⟨0, by decide⟩).val :=
  dot_S4096x512_S512x28_S4096x28_1_0_0_1_n_n.rhsIdx_val_of_single rfl i q
theorem rhs_first_1 (i : S4096x28.Idx) (q : dot_S4096x512_S512x28_S4096x28_1_0_0_1_n_n.contr.Idx) :
    (dot_S4096x512_S512x28_S4096x28_1_0_0_1_n_n.rhsIdx i q 1).val = (i 1).val := by
  unfold DotDims.rhsIdx
  rw [dif_neg (show ¬(1 : Fin S512x28.rank) ∈ dot_S4096x512_S512x28_S4096x28_1_0_0_1_n_n.rhsBatch by decide), dif_pos (show (1 : Fin S512x28.rank) ∈ dot_S4096x512_S512x28_S4096x28_1_0_0_1_n_n.rhsNonContracting by decide)]
  rfl

/-- The block's rows times W, at row r and column s: a sum over the 512 features. -/
theorem blockProj_apply (x0 : Vec Ideal S4096x512 .f32) (x1 : Vec Ideal S512x28 .f32) (r : Fin 4096) (s : Fin 28) :
    k0_pay1 (F := Ideal) x0 x1 (ix2 r s) = ∑ d : Fin 512, x0 (ix2 r d) * x1 (ix2 d s) := by
  unfold k0_pay1
  refine (Ideal.matmul_constant_zero_apply _ none _ _ _).trans ?_
  rw [← Equiv.sum_comp (contrEquiv1 dot_S4096x512_S512x28_S4096x28_1_0_0_1_n_n 512 rfl rfl).symm]
  refine Finset.sum_congr rfl fun k _ => ?_
  have hk := contrEquiv1_symm_val dot_S4096x512_S512x28_S4096x28_1_0_0_1_n_n 512 rfl rfl k
  have el : dot_S4096x512_S512x28_S4096x28_1_0_0_1_n_n.lhsIdx (ix2 r s) ((contrEquiv1 dot_S4096x512_S512x28_S4096x28_1_0_0_1_n_n 512 rfl rfl).symm k) = ix2 r k := funext fun a => Fin.ext (by
    match a with
    | ⟨0, _⟩ => exact lhs_first_0 _ _
    | ⟨1, _⟩ => exact (lhs_first_1 _ _).trans hk)
  have er : dot_S4096x512_S512x28_S4096x28_1_0_0_1_n_n.rhsIdx (ix2 r s) ((contrEquiv1 dot_S4096x512_S512x28_S4096x28_1_0_0_1_n_n 512 rfl rfl).symm k) = ix2 k s := funext fun a => Fin.ext (by
    match a with
    | ⟨0, _⟩ => exact (rhs_first_0 _ _).trans hk
    | ⟨1, _⟩ => exact rhs_first_1 _ _)
  rw [el, er]
  rfl

/-! ## The second product's operand indices, axis by axis: [4096, 28] times [28, 1] -/

theorem lhs_second_0 (i : S4096x1.Idx) (q : dot_S4096x28_S28x1_S4096x1_1_0_0_1_n_n.contr.Idx) :
    (dot_S4096x28_S28x1_S4096x1_1_0_0_1_n_n.lhsIdx i q 0).val = (i 0).val := by
  unfold DotDims.lhsIdx
  rw [dif_neg (show ¬(0 : Fin S4096x28.rank) ∈ dot_S4096x28_S28x1_S4096x1_1_0_0_1_n_n.lhsBatch by decide), dif_pos (show (0 : Fin S4096x28.rank) ∈ dot_S4096x28_S28x1_S4096x1_1_0_0_1_n_n.lhsNonContracting by decide)]
  rfl
theorem lhs_second_1 (i : S4096x1.Idx) (q : dot_S4096x28_S28x1_S4096x1_1_0_0_1_n_n.contr.Idx) :
    (dot_S4096x28_S28x1_S4096x1_1_0_0_1_n_n.lhsIdx i q 1).val = (q ⟨0, by decide⟩).val :=
  dot_S4096x28_S28x1_S4096x1_1_0_0_1_n_n.lhsIdx_val_of_single rfl i q
theorem rhs_second_0 (i : S4096x1.Idx) (q : dot_S4096x28_S28x1_S4096x1_1_0_0_1_n_n.contr.Idx) :
    (dot_S4096x28_S28x1_S4096x1_1_0_0_1_n_n.rhsIdx i q 0).val = (q ⟨0, by decide⟩).val :=
  dot_S4096x28_S28x1_S4096x1_1_0_0_1_n_n.rhsIdx_val_of_single rfl i q
theorem rhs_second_1 (i : S4096x1.Idx) (q : dot_S4096x28_S28x1_S4096x1_1_0_0_1_n_n.contr.Idx) :
    (dot_S4096x28_S28x1_S4096x1_1_0_0_1_n_n.rhsIdx i q 1).val = (i 1).val := by
  unfold DotDims.rhsIdx
  rw [dif_neg (show ¬(1 : Fin S28x1.rank) ∈ dot_S4096x28_S28x1_S4096x1_1_0_0_1_n_n.rhsBatch by decide), dif_pos (show (1 : Fin S28x1.rank) ∈ dot_S4096x28_S28x1_S4096x1_1_0_0_1_n_n.rhsNonContracting by decide)]
  rfl

/-- That product times φ, at row r: a sum over the 28 projected entries. -/
theorem blockScore_apply (x0 : Vec Ideal S4096x512 .f32) (x1 : Vec Ideal S512x28 .f32) (x2 : Vec Ideal S28x1 .f32) (r : Fin 4096) :
    k0_pay2 (F := Ideal) x0 x1 x2 (ix2 r 0) = ∑ s : Fin 28, k0_pay1 (F := Ideal) x0 x1 (ix2 r s) * x2 (ix2 s 0) := by
  unfold k0_pay2
  generalize k0_pay1 (F := Ideal) x0 x1 = y
  refine (Ideal.matmul_constant_zero_apply _ none _ _ _).trans ?_
  rw [← Equiv.sum_comp (contrEquiv1 dot_S4096x28_S28x1_S4096x1_1_0_0_1_n_n 28 rfl rfl).symm]
  refine Finset.sum_congr rfl fun k _ => ?_
  have hk := contrEquiv1_symm_val dot_S4096x28_S28x1_S4096x1_1_0_0_1_n_n 28 rfl rfl k
  have el : dot_S4096x28_S28x1_S4096x1_1_0_0_1_n_n.lhsIdx (ix2 r 0) ((contrEquiv1 dot_S4096x28_S28x1_S4096x1_1_0_0_1_n_n 28 rfl rfl).symm k) = ix2 r k := funext fun a => Fin.ext (by
    match a with
    | ⟨0, _⟩ => exact lhs_second_0 _ _
    | ⟨1, _⟩ => exact (lhs_second_1 _ _).trans hk)
  have er : dot_S4096x28_S28x1_S4096x1_1_0_0_1_n_n.rhsIdx (ix2 r 0) ((contrEquiv1 dot_S4096x28_S28x1_S4096x1_1_0_0_1_n_n 28 rfl rfl).symm k) = ix2 k 0 := funext fun a => Fin.ext (by
    match a with
    | ⟨0, _⟩ => exact (rhs_second_0 _ _).trans hk
    | ⟨1, _⟩ => exact rhs_second_1 _ _)
  rw [el, er]
  rfl

/-- The last row of the block's product, kept by the slice at row offset 4095. -/
theorem blockLast_apply (x0 : Vec Ideal S4096x512 .f32) (x1 : Vec Ideal S512x28 .f32) (s : Fin 28) :
    k0_pay3 (F := Ideal) x0 x1 (ix2 0 s) = k0_pay1 (F := Ideal) x0 x1 (ix2 ⟨4095, by decide⟩ s) := by
  unfold k0_pay3
  generalize k0_pay1 (F := Ideal) x0 x1 = y
  exact extractStridedSlice_apply ![4095, 0] y slices_S4096x28_o4095_0_S1x28 (ix2 0 s) (ix2 ⟨4095, by decide⟩ s) (fun a => match a with
    | ⟨0, _⟩ => by show 4095 = 4095 + 0; rfl
    | ⟨1, _⟩ => by show s.val = 0 + s.val; omega)

end Cert.Scoring.Payload

end
-- ==== Proof.BlockValue.lean ====
/-
  One block's values are the specification at the matching rows of the arrays.

  Take a block x0 of 4096 consecutive rows of θ, so that row r of the block is row i of θ, together with the
  whole of W as x1 and the whole of φ as x2. Then

      the block of scores at row r           is  `score θ W φ i`,
      the block's projected row r, column s  is  `proj θ W i s`,

  because each is the same nested sum with θ's row i written for the block's row r. In particular the
  block's last projected row (row 4095) is `proj` at the array row its row 4095 stands for.
-/
import proofs.«101048_j89395449299573_1_alg».proof.Proof.Payload
import proofs.«101048_j89395449299573_1_alg».proof.Proof.Spec

noncomputable section

namespace Cert.Scoring.BlockValue

open Cert.KernelIdeal Cert.KernelIdeal.Gen Idealize.ShloMosaic Idealize.ShloMosaic.TcCoe Idealize.ShloMosaic.ValueIdx
open scoped BigOperators

/-- The block's projected entry (r, s) is `proj` at the array row i that block row r stands for. -/
theorem blockProj_eq_proj (x0 : Vec Ideal S4096x512 .f32) (x1 : Vec Ideal S512x28 .f32)
    (θ : FVec Ideal ⟨2, ![131072, 512]⟩ .f32) (W : FVec Ideal ⟨2, ![512, 28]⟩ .f32)
    (i : Fin 131072) (r : Fin 4096) (s : Fin 28)
    (hrow : ∀ d : Fin 512, x0 (ix2 r d) = θ (ix2 i d)) (hW : x1 = W) :
    k0_pay1 (F := Ideal) x0 x1 (ix2 r s) = proj θ W i s := by
  subst hW
  rw [Payload.blockProj_apply]
  unfold proj
  exact Finset.sum_congr rfl fun d _ => by rw [hrow d]

/-- The block of scores at row r is `score` at the array row i that block row r stands for. -/
theorem blockScore_eq_score (x0 : Vec Ideal S4096x512 .f32) (x1 : Vec Ideal S512x28 .f32) (x2 : Vec Ideal S28x1 .f32)
    (θ : FVec Ideal ⟨2, ![131072, 512]⟩ .f32) (W : FVec Ideal ⟨2, ![512, 28]⟩ .f32) (φ : FVec Ideal ⟨2, ![28, 1]⟩ .f32)
    (i : Fin 131072) (r : Fin 4096)
    (hrow : ∀ d : Fin 512, x0 (ix2 r d) = θ (ix2 i d)) (hW : x1 = W) (hφ : x2 = φ) :
    k0_pay2 (F := Ideal) x0 x1 x2 (ix2 r 0) = score θ W φ i := by
  subst hφ
  rw [Payload.blockScore_apply]
  unfold score
  exact Finset.sum_congr rfl fun s _ => by rw [blockProj_eq_proj x0 x1 θ W i r s hrow hW]

/-- The block's last projected row, at column s, is `proj` at the array row i that block row 4095 stands for. -/
theorem blockLast_eq_proj (x0 : Vec Ideal S4096x512 .f32) (x1 : Vec Ideal S512x28 .f32)
    (θ : FVec Ideal ⟨2, ![131072, 512]⟩ .f32) (W : FVec Ideal ⟨2, ![512, 28]⟩ .f32)
    (i : Fin 131072) (s : Fin 28)
    (hrow : ∀ d : Fin 512, x0 (ix2 ⟨4095, by decide⟩ d) = θ (ix2 i d)) (hW : x1 = W) :
    k0_pay3 (F := Ideal) x0 x1 (ix2 0 s) = proj θ W i s := by
  rw [Payload.blockLast_apply]
  exact blockProj_eq_proj x0 x1 θ W i ⟨4095, by decide⟩ s hrow hW

end Cert.Scoring.BlockValue

end
-- ==== Proof.Blocks.lean ====
/-
  From what each grid point writes back to what the two result arrays hold after the run.

  The grid has 32 points; point t stages rows 4096·t … 4096·t + 4095 of θ, and the whole of W and of φ at
  every point.

  First result (131072 rows, one column). Every point writes its block back, and block t is rows
  4096·t … 4096·t + 4095 of the array. What point t writes is the block of scores of its input blocks, whose
  row r is `score` at array row 4096·t + r. The 32 blocks tile the array (row i lies in block i / 4096), so
  the array ends holding `scores`.

  Second result (one row of 28). Its one block is the whole array, revisited by every point, but only the
  last point (t = 31) stores into it and only that point writes it back. What it writes is the last projected
  row of its block, row 4095, which stands for array row 4096·31 + 4095 = 131071: the last row of θ·W. That
  one write-back covers the array, so it ends holding `lastProj`.
-/
import proofs.«101048_j89395449299573_1_alg».proof.Proof.Gen.KernelIdeal.Value
import proofs.«101048_j89395449299573_1_alg».proof.Proof.Spec
import proofs.«101048_j89395449299573_1_alg».proof.Proof.Pieces
import proofs.«101048_j89395449299573_1_alg».proof.Proof.BlockValue

noncomputable section

namespace Cert.Scoring.Blocks

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays and the point's blocks, at their literal shapes -/

/-- θ, W and φ as the region finds them. (The kernel is called with (θ, W, φ): its second window stages the
    third argument and its third window the second.) -/
abbrev θ (c : Dev nD) : FVec Ideal ⟨2, ![131072, 512]⟩ .f32 := V m c main_arg0
abbrev W (c : Dev nD) : FVec Ideal ⟨2, ![512, 28]⟩ .f32 := V m c main_arg2
abbrev φ (c : Dev nD) : FVec Ideal ⟨2, ![28, 1]⟩ .f32 := V m c main_arg1

/-- Point t's rows of θ, and the blocks of W and φ it is given. -/
abbrev rows (c : Dev nD) (t : Fin cfg0.N) : Vec Ideal S4096x512 .f32 := iblk m c 0 t
abbrev wblk (c : Dev nD) (t : Fin cfg0.N) : Vec Ideal S512x28 .f32 := iblk m c 1 t
abbrev pblk (c : Dev nD) (t : Fin cfg0.N) : Vec Ideal S28x1 .f32 := iblk m c 2 t

/-! ## Where each window's block sits, decided over the 32 points -/

/-- The rows of θ and the block of scores move with the point along the rows; W, φ and the second result stay
    at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0)

/-! ## The input blocks read off the arrays -/

/-- Row r of point t's block of θ is row 4096·t + r of θ. -/
theorem rows_read (c : Dev nD) (t : Fin cfg0.N) (r : Fin 4096) (d : Fin 512) (i : Fin 131072)
    (hi : i.val = 4096 * t.val + r.val) :
    rows m c t (ix2 r d) = θ m c (ix2 i d) := by
  obtain ⟨e0, e1, -⟩ := block_indices t
  show iblk m c 0 t (ix2 r d) = V m c main_arg0 (ix2 i d)
  unfold iblk
  rw [View.read_apply]
  show V m c main_arg0 (((cfg0.win 0).blk t).view.emb (ix2 r d)) = V m c main_arg0 (ix2 i d)
  refine congrArg (V m c main_arg0) (funext fun a => Fin.ext ?_)
  match a with
  | ⟨0, _⟩ => show win0_0.index t (0 : Fin 2) * 4096 + 1 * r.val = i.val; omega
  | ⟨1, _⟩ => show win0_0.index t (1 : Fin 2) * 512 + 1 * d.val = d.val; omega

/-- The block of W every point is given is W. -/
theorem wblk_eq (c : Dev nD) (t : Fin cfg0.N) : wblk m c t = W m c := by
  obtain ⟨-, -, e2, e3, -⟩ := block_indices t
  funext y
  show iblk m c 1 t y = V m c main_arg2 y
  unfold iblk
  rw [View.read_apply]
  show V m c main_arg2 (((cfg0.win 1).blk t).view.emb y) = V m c main_arg2 y
  refine congrArg (V m c main_arg2) (funext fun a => Fin.ext ?_)
  match a with
  | ⟨0, _⟩ => show win0_1.index t (0 : Fin 2) * 512 + 1 * (y 0).val = (y 0).val; omega
  | ⟨1, _⟩ => show win0_1.index t (1 : Fin 2) * 28 + 1 * (y 1).val = (y 1).val; omega

/-- The block of φ every point is given is φ. -/
theorem pblk_eq (c : Dev nD) (t : Fin cfg0.N) : pblk m c t = φ m c := by
  obtain ⟨-, -, -, -, e4, e5, -⟩ := block_indices t
  funext y
  show iblk m c 2 t y = V m c main_arg1 y
  unfold iblk
  rw [View.read_apply]
  show V m c main_arg1 (((cfg0.win 2).blk t).view.emb y) = V m c main_arg1 y
  refine congrArg (V m c main_arg1) (funext fun a => Fin.ext ?_)
  match a with
  | ⟨0, _⟩ => show win0_2.index t (0 : Fin 2) * 28 + 1 * (y 0).val = (y 0).val; omega
  | ⟨1, _⟩ => show win0_2.index t (1 : Fin 2) * 1 + 1 * (y 1).val = (y 1).val; omega

/-! ## The first result: the scores -/

/-- What point t writes back to the first result is the block of scores of its input blocks, at the last point
    as at the others. -/
theorem flushed_scores_val (c : Dev nD) (t : Fin cfg0.N) :
    (dats m 0 c).flushed 3 t
      = (cfg0.win 3).cut (grid0.coords t) (k0_pay2 (F := Ideal) (rows m c t) (wblk m c t) (pblk m c t)) := by
  by_cases h0 : t.val % 32 = 31
  · exact (flushed3_B m c t h0).trans (congrArg ((cfg0.win 3).cut (grid0.coords t))
      (Pieces.scores_last (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)))
  · exact (flushed3_A m c t h0).trans (congrArg ((cfg0.win 3).cut (grid0.coords t))
      (Pieces.scores_away (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t)))

/-- … which is block t of `scores`: row r of the block is array row 4096·t + r. -/
theorem flushed_scores (c : Dev nD) (t : Fin cfg0.N) :
    (dats m 0 c).flushed 3 t
      = ((cfg0.win 3).blk t).view.read (Elt Ideal) (scores (θ m c) (W m c) (φ m c)) := by
  obtain ⟨-, -, -, -, -, -, e6, e7, -⟩ := block_indices t
  have key : ∀ y : S4096x1.Idx,
      k0_pay2 (F := Ideal) (rows m c t) (wblk m c t) (pblk m c t) y
        = scores (θ m c) (W m c) (φ m c) (((cfg0.win 3).blk t).view.emb y) := by
    intro y
    obtain ⟨r, q, rfl⟩ : ∃ (r : Fin 4096) (q : Fin 1), y = ix2 r q := ⟨y 0, y 1, eq_ix2 y⟩
    obtain rfl : q = 0 := Subsingleton.elim _ _
    show _ = score (θ m c) (W m c) (φ m c) ((((cfg0.win 3).blk t).view.emb (ix2 r 0)) 0)
    refine BlockValue.blockScore_eq_score (rows m c t) (wblk m c t) (pblk m c t) (θ m c) (W m c) (φ m c)
      ((((cfg0.win 3).blk t).view.emb (ix2 r 0)) 0) r (fun d => ?_) (wblk_eq m c t) (pblk_eq m c t)
    refine rows_read m c t r d _ ?_
    show win0_3.index t (0 : Fin 2) * 4096 + 1 * r.val = 4096 * t.val + r.val
    omega
  rw [flushed_scores_val]
  funext y
  show k0_pay2 (F := Ideal) (rows m c t) (wblk m c t) (pblk m c t) y
    = scores (θ m c) (W m c) (φ m c) (((cfg0.win 3).blk t).view.emb y)
  exact key y

/-- An index of the first result lies in point t's block iff each coordinate is in the block's range. -/
theorem mem_scores_block (t : Fin cfg0.N) (i : S131072x1.Idx) :
    i ∈ ((cfg0.win 3).blk t).view.set
      ↔ ∀ a : Fin 2, win0_3.index t a * S4096x1.size a ≤ (i a).val
          ∧ (i a).val < win0_3.index t a * S4096x1.size a + S4096x1.size a := by
  show i ∈ ((View.whole main_v0_0).slice (win0_3.rect t)).set ↔ _
  rw [View.set_slice_whole, Rect.mem_set_unit]
  exact Iff.rfl

/-- The 32 blocks tile the first result: row i lies in the block of point i / 4096, which writes back. -/
theorem scores_covered (i : S131072x1.Idx) :
    ∃ t : Fin cfg0.N, (cfg0.win 3).flush t = true ∧ i ∈ ((cfg0.win 3).blk t).view.set := by
  have hi0 : (i 0).val < 131072 := (i 0).isLt
  have hi1 : (i 1).val < 1 := (i 1).isLt
  have hN : cfg0.N = 32 := N_0
  have hlt : (i 0).val / 4096 < cfg0.N := by rw [hN]; omega
  obtain ⟨-, -, -, -, -, -, e6, e7, -⟩ := block_indices ⟨(i 0).val / 4096, hlt⟩
  refine ⟨⟨(i 0).val / 4096, hlt⟩, flush0_3 _, ?_⟩
  rw [mem_scores_block]
  intro a
  match a with
  | ⟨0, _⟩ =>
    show win0_3.index ⟨(i 0).val / 4096, hlt⟩ (0 : Fin 2) * 4096 ≤ (i 0).val
      ∧ (i 0).val < win0_3.index ⟨(i 0).val / 4096, hlt⟩ (0 : Fin 2) * 4096 + 4096
    rw [e6]; dsimp only; omega
  | ⟨1, _⟩ =>
    show win0_3.index ⟨(i 0).val / 4096, hlt⟩ (1 : Fin 2) * 1 ≤ (i 1).val
      ∧ (i 1).val < win0_3.index ⟨(i 0).val / 4096, hlt⟩ (1 : Fin 2) * 1 + 1
    rw [e7]; omega

/-- The first result ends holding `scores`. -/
theorem final_scores (c : Dev nD) :
    (dats m 0 c).arrAt 3 cfg0.N = scores (θ m c) (W m c) (φ m c) :=
  (dats m 0 c).arrAt_eq_of_cover 3 (scores (θ m c) (W m c) (φ m c)) (fun t _ => flushed_scores m c t) scores_covered

/-! ## The second result: the last projected row -/

/-- What the last point, the only one that writes the second result back, writes there is `lastProj`: its
    block's row 4095 stands for array row 4096·31 + 4095 = 131071. -/
theorem flushed_last (c : Dev nD) (t : Fin cfg0.N) (hf : (cfg0.win 4).flush t = true) :
    (dats m 0 c).flushed 4 t
      = ((cfg0.win 4).blk t).view.read (Elt Ideal) (lastProj (θ m c) (W m c)) := by
  have h0 : t.val % 32 = 31 := (flush0_4 t).mp hf
  have hN : t.val < 32 := lt_of_lt_of_eq t.isLt (show cfg0.N = 32 from N_0)
  obtain ⟨-, -, -, -, -, -, -, -, e8, e9⟩ := block_indices t
  have key : ∀ y : S1x28.Idx,
      k0_pay3 (F := Ideal) (rows m c t) (wblk m c t) y
        = lastProj (θ m c) (W m c) (((cfg0.win 4).blk t).view.emb y) := by
    intro y
    obtain ⟨p, s, rfl⟩ : ∃ (p : Fin 1) (s : Fin 28), y = ix2 p s := ⟨y 0, y 1, eq_ix2 y⟩
    obtain rfl : p = 0 := Subsingleton.elim _ _
    have hs : (((cfg0.win 4).blk t).view.emb (ix2 0 s)) 1 = s :=
      Fin.ext (by show win0_4.index t (1 : Fin 2) * 28 + 1 * s.val = s.val; omega)
    show _ = proj (θ m c) (W m c) lastRow ((((cfg0.win 4).blk t).view.emb (ix2 0 s)) 1)
    rw [hs]
    refine BlockValue.blockLast_eq_proj (rows m c t) (wblk m c t) (θ m c) (W m c) lastRow s (fun d => ?_) (wblk_eq m c t)
    refine rows_read m c t ⟨4095, by decide⟩ d lastRow ?_
    show 131071 = 4096 * t.val + 4095
    omega
  rw [flushed4_B m c t h0]
  refine (congrArg ((cfg0.win 4).cut (grid0.coords t))
    (Pieces.row_last (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t))).trans ?_
  funext y
  show k0_pay3 (F := Ideal) (rows m c t) (wblk m c t) y
    = lastProj (θ m c) (W m c) (((cfg0.win 4).blk t).view.emb y)
  exact key y

/-- An index of the second result lies in a point's block iff each coordinate is in the block's range. -/
theorem mem_last_block (t : Fin cfg0.N) (i : S1x28.Idx) :
    i ∈ ((cfg0.win 4).blk t).view.set
      ↔ ∀ a : Fin 2, win0_4.index t a * S1x28.size a ≤ (i a).val
          ∧ (i a).val < win0_4.index t a * S1x28.size a + S1x28.size a := by
  show i ∈ ((View.whole main_v0_1).slice (win0_4.rect t)).set ↔ _
  rw [View.set_slice_whole, Rect.mem_set_unit]
  exact Iff.rfl

/-- The last point writes back, and its block is the whole second result. -/
theorem last_covered (i : S1x28.Idx) :
    ∃ t : Fin cfg0.N, (cfg0.win 4).flush t = true ∧ i ∈ ((cfg0.win 4).blk t).view.set := by
  have hi0 : (i 0).val < 1 := (i 0).isLt
  have hi1 : (i 1).val < 28 := (i 1).isLt
  have hlt : 31 < cfg0.N := by rw [show cfg0.N = 32 from N_0]; decide
  obtain ⟨-, -, -, -, -, -, -, -, e8, e9⟩ := block_indices ⟨31, hlt⟩
  refine ⟨⟨31, hlt⟩, (flush0_4 _).mpr rfl, ?_⟩
  rw [mem_last_block]
  intro a
  match a with
  | ⟨0, _⟩ =>
    show win0_4.index ⟨31, hlt⟩ (0 : Fin 2) * 1 ≤ (i 0).val ∧ (i 0).val < win0_4.index ⟨31, hlt⟩ (0 : Fin 2) * 1 + 1
    rw [e8]; omega
  | ⟨1, _⟩ =>
    show win0_4.index ⟨31, hlt⟩ (1 : Fin 2) * 28 ≤ (i 1).val ∧ (i 1).val < win0_4.index ⟨31, hlt⟩ (1 : Fin 2) * 28 + 28
    rw [e9]; omega

/-- The second result ends holding `lastProj`. -/
theorem final_last (c : Dev nD) :
    (dats m 0 c).arrAt 4 cfg0.N = lastProj (θ m c) (W m c) :=
  (dats m 0 c).arrAt_eq_of_cover 4 (lastProj (θ m c) (W m c)) (flushed_last m c) last_covered

/-! ## The run, read -/

/-- Every weakly fair execution of the kernel read over the exact reals terminates with the first result at `scores` and the
    second at `lastProj` of the arguments as launched, and the arguments unchanged. -/
theorem run : θ_run defs (onTc (τ := τ) (main (F := Ideal))) ⟨m, fun _ => 0, ρ⟩ fun r => ∀ c : Dev nD,
      r.2.mem ((c : Thread nD τ).loc main_v0_0)
        = scores (m ((c : Thread nD τ).loc main_arg0)) (m ((c : Thread nD τ).loc main_arg2)) (m ((c : Thread nD τ).loc main_arg1))
      ∧ r.2.mem ((c : Thread nD τ).loc main_v0_1)
        = lastProj (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_scores m c), (h c).2.1.trans (final_last m c), (h c).2.2⟩)
    (run_blocks m ρ)

end Cert.Scoring.Blocks

end
-- ==== Proof.Reference.lean ====
/-
  The reference, read at an index, is the specification.

  The reference computes θ·W with one host product, then (θ·W)·φ with a second, and slices the last row
  of θ·W. At the exact reals each host product at an index is the sum over its one contracted axis of the
  left operand at (row, k) times the right operand at (k, column). Naming those operand indices by their
  coordinates turns the first product into `proj`, the second into `score` over `proj`, and the slice
  at offset 131071 into the last row of `proj`.
-/
import proofs.«101048_j89395449299573_1_alg».proof.Proof.Gen.ReferenceIdeal.Read
import proofs.«101048_j89395449299573_1_alg».proof.Proof.Spec

noncomputable section

namespace Cert.Scoring.Ref

open Cert.ReferenceIdeal Cert.ReferenceIdeal.Read Idealize.ShloMosaic Idealize.ShloMosaic.ValueIdx
open scoped BigOperators

/-- θ·W on the host, at row p and column q, is `proj`: the contracted index k runs over the 512 features,
    the left operand is read at (p, k) and the right at (k, q). -/
theorem product_apply (x0 : FVec Ideal ⟨2, ![131072, 512]⟩ .f32) (x2 : FVec Ideal ⟨2, ![512, 28]⟩ .f32)
    (p : Fin 131072) (q : Fin 28) :
    val_main_v0 (F := Ideal) x0 x2 (ix2 p q) = proj x0 x2 p q := by
  rw [val_main_v0_apply]
  unfold proj
  refine Finset.sum_congr rfl fun k _ => ?_
  have el : lidx_main_v0 (ix2 p q) k = ix2 p k :=
    funext fun a => Fin.ext (by match a with | ⟨0, _⟩ => rfl | ⟨1, _⟩ => rfl)
  have er : ridx_main_v0 (ix2 p q) k = ix2 k q :=
    funext fun a => Fin.ext (by match a with | ⟨0, _⟩ => rfl | ⟨1, _⟩ => rfl)
  rw [el, er]

/-- (θ·W)·φ on the host is `scores`: at row p the contracted index runs over the 28 projected entries,
    the left operand is θ·W at (p, k), which is `proj`, and the right is φ at (k, 0). -/
theorem scores_eq (x0 : FVec Ideal ⟨2, ![131072, 512]⟩ .f32) (x1 : FVec Ideal ⟨2, ![28, 1]⟩ .f32)
    (x2 : FVec Ideal ⟨2, ![512, 28]⟩ .f32) :
    val_main_v1 (F := Ideal) x0 x1 x2 = scores x0 x2 x1 := by
  funext j
  obtain ⟨p, q, rfl⟩ : ∃ (p : Fin 131072) (q : Fin 1), j = ix2 p q := ⟨j 0, j 1, eq_ix2 j⟩
  obtain rfl : q = 0 := Subsingleton.elim _ _
  rw [val_main_v1_apply]
  show _ = score x0 x2 x1 p
  unfold score
  refine Finset.sum_congr rfl fun k _ => ?_
  have el : lidx_main_v1 (ix2 p 0) k = ix2 p k :=
    funext fun a => Fin.ext (by match a with | ⟨0, _⟩ => rfl | ⟨1, _⟩ => rfl)
  have er : ridx_main_v1 (ix2 p 0) k = ix2 k 0 :=
    funext fun a => Fin.ext (by match a with | ⟨0, _⟩ => rfl | ⟨1, _⟩ => rfl)
  rw [el, er, product_apply]

/-- The slice of θ·W at row offset 131071 is `lastProj`: its one row is row 131071 of `proj`. -/
theorem lastProj_eq (x0 : FVec Ideal ⟨2, ![131072, 512]⟩ .f32) (x2 : FVec Ideal ⟨2, ![512, 28]⟩ .f32) :
    val_main_v2 (F := Ideal) x0 x2 = lastProj x0 x2 := by
  funext j
  obtain ⟨p, q, rfl⟩ : ∃ (p : Fin 1) (q : Fin 28), j = ix2 p q := ⟨j 0, j 1, eq_ix2 j⟩
  obtain rfl : p = 0 := Subsingleton.elim _ _
  rw [val_main_v2_apply]
  have e : idx_main_v2 (ix2 0 q) = ix2 lastRow q :=
    funext fun a => Fin.ext (by match a with | ⟨0, _⟩ => rfl | ⟨1, _⟩ => rfl)
  rw [e, product_apply]
  rfl

end Cert.Scoring.Ref

end
-- ==== Proof.lean ====
/-
  A score per row and the last projected row: the kernel against its reference, over the extended reals.

  The arguments are θ of shape [131072, 512], φ of shape [28, 1] and W of shape [512, 28]. Both programs
  return

      scores[i, 0] = Σ_{s < 28} ( Σ_{d < 512} θ[i, d] · W[d, s] ) · φ[s, 0]        for every row i,
      out[0, s]    = Σ_{d < 512} θ[131071, d] · W[d, s]                            the last row of θ·W.

  The reference forms θ·W with one product, multiplies it by φ with a second, and slices row 131071 of θ·W.
  The kernel walks θ in 32 blocks of 4096 rows. At each block it forms the block's rows times W, multiplies
  that by φ and writes the 4096 scores back; at the last block only it also keeps the product's last row,
  row 4095 of block 31, which is row 4096·31 + 4095 = 131071 of θ·W. It narrows its operands to a shorter
  float format before each product, which is the identity on the exact reals, and accumulates each product
  into a zero block, which adds nothing.

  So at every index the two programs are the same nested sums in the same grouping, (θ·W)·φ: nothing is
  re-associated or distributed, and the finiteness the precondition grants is never used.

  How the proof is cut:
    Spec        the two results as whole-array functions of (θ, W, φ): `scores` and `lastProj`;
    Reference   the reference's two products and its slice, read at an index, are those functions;
    Payload     what one grid point computes from its input blocks, read at an index;
    BlockValue  a block's values are the specification at the array rows the block stands for;
    Pieces      what the body leaves in each output buffer is that value of the point's input blocks;
    Blocks      from what each point writes back to what the two result arrays hold after the run.
  The three frames are the generated ones (the reference's is its generated run with the results dropped);
  the idealization rewrote nothing, so there is nothing to preserve.
-/
import proofs.«101048_j89395449299573_1_alg».proof.Defs
import proofs.«101048_j89395449299573_1_alg».proof.Proof.Gen.Kernel
import proofs.«101048_j89395449299573_1_alg».proof.Proof.Gen.Kernel.Skeleton
import proofs.«101048_j89395449299573_1_alg».proof.Proof.Gen.Kernel.Launch
import proofs.«101048_j89395449299573_1_alg».proof.Proof.Gen.Kernel.Points
import proofs.«101048_j89395449299573_1_alg».proof.Proof.Gen.Kernel.Frame
import proofs.«101048_j89395449299573_1_alg».proof.Proof.Gen.KernelIdeal
import proofs.«101048_j89395449299573_1_alg».proof.Proof.Gen.KernelIdeal.Skeleton
import proofs.«101048_j89395449299573_1_alg».proof.Proof.Gen.KernelIdeal.Launch
import proofs.«101048_j89395449299573_1_alg».proof.Proof.Gen.KernelIdeal.Points
import proofs.«101048_j89395449299573_1_alg».proof.Proof.Gen.KernelIdeal.Frame
import proofs.«101048_j89395449299573_1_alg».proof.Proof.Gen.ReferenceIdeal
import proofs.«101048_j89395449299573_1_alg».proof.Proof.Gen.Pre_finite_inputs
import proofs.«101048_j89395449299573_1_alg».proof.Proof.Gen.KernelIdeal.Value
import proofs.«101048_j89395449299573_1_alg».proof.Proof.Gen.ReferenceIdeal.Run
import proofs.«101048_j89395449299573_1_alg».proof.Proof.Gen.ReferenceIdeal.Read
import proofs.«101048_j89395449299573_1_alg».proof.Proof.Blocks
import proofs.«101048_j89395449299573_1_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read over the exact reals. -/
theorem frame_kernelIdeal : Cert.frame_KernelIdeal := fun m ρ _ => Cert.KernelIdeal.Gen.frame m ρ

/-- So does the reference: its run, with what it says of the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Reading the kernel over the exact reals rewrote none of its operations. -/
theorem preserves : Cert.preserves_Kernel_KernelIdeal := trivial

/-- From arguments that agree, the kernel ends with `scores` and `lastProj` of them in its two results, and
    the reference's two products and slice are the same two functions. -/
theorem algebraic : Cert.algebraic_KernelIdeal_ReferenceIdeal := by
  intro m ρ m' ρ' _ hagree
  refine ⟨fun c => Cert.Scoring.scores (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg1)),
    fun c => Cert.Scoring.lastProj (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    Cert.Scoring.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2]
    exact (Cert.ReferenceIdeal.Read.val_main_v1_eq _ _ _).trans (Cert.Scoring.Ref.scores_eq _ _ _)
  · rw [(hagree c).1, (hagree c).2.2]
    exact (Cert.ReferenceIdeal.Read.val_main_v2_eq _ _).trans (Cert.Scoring.Ref.lastProj_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
